-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S4096x64 : Shape := ⟨2, ![4096, 64]⟩
abbrev S512x1024 : Shape := ⟨2, ![512, 1024]⟩
abbrev S512x64 : Shape := ⟨2, ![512, 64]⟩
abbrev S512 : Shape := ⟨1, ![512]⟩
abbrev S512x1 : Shape := ⟨2, ![512, 1]⟩

abbrev nBuf : Space → Nat
  | .hbm => 2
  | .vmem => 5
  | .smem => 0
  | _ => 0

abbrev bufTy : (tb : Table) → Fin (tcTables nBuf tb) → BufTy
  | .hbm, ⟨0, _⟩ => ⟨S4096x8192, .f32⟩
  | .hbm, ⟨1, _⟩ => ⟨S4096x64, .f32⟩
  | .local _ .vmem, ⟨0, _⟩ => ⟨S512x1024, .f32⟩
  | .local _ .vmem, ⟨1, _⟩ => ⟨S512x1024, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32_263 : BitVec 32 := 7#32
  let v718 : BitVec 1 := Scalar.cmpi .eq arg1 c7_i32_263
  let v719 : BitVec 32 := Scalar.extui v718
  let c0_i32_264 : BitVec 32 := 0#32
  let v720 : BitVec 1 := Scalar.cmpi .ne v719 c0_i32_264
  v720

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x1024_S512x1024_0_0 : ∀ a, (![0, 0] : Fin 2 → Nat) a + S512x1024.size a ≤ S512x1024.size a
  h_S512x1024 : 0 < S512x1024.numel
  natLt_1_32 : 1 < 32
  reduces_S512x1024_S512 : S512x1024.Reduces [1] S512
  shapeCasts_S512_S512x1 : S512.ShapeCasts S512x1
  inb_S512x64_S512x1_0_0 : ∀ a, (![0, 0] : Fin 2 → Nat) a + S512x1.size a ≤ S512x64.size a
  h_S512x1 : 0 < S512x1.numel
  shapeCasts_S512x1_S512x1 : S512x1.ShapeCasts S512x1
  inb_S512x64_S512x1_0_1 : ∀ a, (![0, 1] : Fin 2 → Nat) a + S512x1.size a ≤ S512x64.size a
  inb_S512x64_S512x1_0_2 : ∀ a, (![0, 2] : Fin 2 → Nat) a + S512x1.size a ≤ S512x64.size a
  inb_S512x64_S512x1_0_3 : ∀ a, (![0, 3] : Fin 2 → Nat) a + S512x1.size a ≤ S512x64.size a
  inb_S512x64_S512x1_0_4 : ∀ a, (![0, 4] : Fin 2 → Nat) a + S512x1.size a ≤ S512x64.size a
  inb_S512x64_S512x1_0_5 : ∀ a, (![0, 5] : Fin 2 → Nat) a + S512x1.size a ≤ S512x64.size a
  inb_S512x64_S512x1_0_6 : ∀ a, (![0, 6] : Fin 2 → Nat) a + S512x1.size a ≤ S512x64.size a
  inb_S512x64_S512x1_0_7 : ∀ a, (![0, 7] : Fin 2 → Nat) a + S512x1.size a ≤ S512x64.size a
  inb_S512x64_S512x1_0_8 : ∀ a, (![0, 8] : Fin 2 → Nat) a + S512x1.size a ≤ S512x64.size a
  inb_S512x64_S512x1_0_9 : ∀ a, (![0, 9] : Fin 2 → Nat) a + S512x1.size a ≤ S512x64.size a
  inb_S512x64_S512x1_0_10 : ∀ a, (![0, 10] : Fin 2 → Nat) a + S512x1.size a ≤ S512x64.size a
  inb_S512x64_S512x1_0_11 : ∀ a, (![0, 11] : Fin 2 → Nat) a + S512x1.size a ≤ S512x64.size a
  inb_S512x64_S512x1_0_12 : ∀ a, (![0, 12] : Fin 2 → Nat) a + S512x1.size a ≤ S512x64.size a
  inb_S512x64_S512x1_0_13 : ∀ a, (![0, 13] : Fin 2 → Nat) a + S512x1.size a ≤ S512x64.size a
  inb_S512x64_S512x1_0_14 : ∀ a, (![0, 14] : Fin 2 → Nat) a + S512x1.size a ≤ S512x64.size a
  inb_S512x64_S512x1_0_15 : ∀ a, (![0, 15] : Fin 2 → Nat) a + S512x1.size a ≤ S512x64.size a
  inb_S512x64_S512x1_0_16 : ∀ a, (![0, 16] : Fin 2 → Nat) a + S512x1.size a ≤ S512x64.size a
  inb_S512x64_S512x1_0_17 : ∀ a, (![0, 17] : Fin 2 → Nat) a + S512x1.size a ≤ S512x64.size a
  inb_S512x64_S512x1_0_18 : ∀ a, (![0, 18] : Fin 2 → Nat) a + S512x1.size a ≤ S512x64.size a
  inb_S512x64_S512x1_0_19 : ∀ a, (![0, 19] : Fin 2 → Nat) a + S512x1.size a ≤ S512x64.size a
  inb_S512x64_S512x1_0_20 : ∀ a, (![0, 20] : Fin 2 → Nat) a + S512x1.size a ≤ S512x64.size a
  inb_S512x64_S512x1_0_21 : ∀ a, (![0, 21] : Fin 2 → Nat) a + S512x1.size a ≤ S512x64.size a
  inb_S512x64_S512x1_0_22 : ∀ a, (![0, 22] : Fin 2 → Nat) a + S512x1.size a ≤ S512x64.size a
  inb_S512x64_S512x1_0_23 : ∀ a, (![0, 23] : Fin 2 → Nat) a + S512x1.size a ≤ S512x64.size a
  inb_S512x64_S512x1_0_24 : ∀ a, (![0, 24] : Fin 2 → Nat) a + S512x1.size a ≤ S512x64.size a
  inb_S512x64_S512x1_0_25 : ∀ a, (![0, 25] : Fin 2 → Nat) a + S512x1.size a ≤ S512x64.size a
  inb_S512x64_S512x1_0_26 : ∀ a, (![0, 26] : Fin 2 → Nat) a + S512x1.size a ≤ S512x64.size a
  inb_S512x64_S512x1_0_27 : ∀ a, (![0, 27] : Fin 2 → Nat) a + S512x1.size a ≤ S512x64.size a
  inb_S512x64_S512x1_0_28 : ∀ a, (![0, 28] : Fin 2 → Nat) a + S512x1.size a ≤ S512x64.size a
  inb_S512x64_S512x1_0_29 : ∀ a, (![0, 29] : Fin 2 → Nat) a + S512x1.size a ≤ S512x64.size a
  inb_S512x64_S512x1_0_30 : ∀ a, (![0, 30] : Fin 2 → Nat) a + S512x1.size a ≤ S512x64.size a
  inb_S512x64_S512x1_0_31 : ∀ a, (![0, 31] : Fin 2 → Nat) a + S512x1.size a ≤ S512x64.size a
  inb_S512x64_S512x1_0_32 : ∀ a, (![0, 32] : Fin 2 → Nat) a + S512x1.size a ≤ S512x64.size a
  inb_S512x64_S512x1_0_33 : ∀ a, (![0, 33] : Fin 2 → Nat) a + S512x1.size a ≤ S512x64.size a
  inb_S512x64_S512x1_0_34 : ∀ a, (![0, 34] : Fin 2 → Nat) a + S512x1.size a ≤ S512x64.size a
  inb_S512x64_S512x1_0_35 : ∀ a, (![0, 35] : Fin 2 → Nat) a + S512x1.size a ≤ S512x64.size a
  inb_S512x64_S512x1_0_36 : ∀ a, (![0, 36] : Fin 2 → Nat) a + S512x1.size a ≤ S512x64.size a
  inb_S512x64_S512x1_0_37 : ∀ a, (![0, 37] : Fin 2 → Nat) a + S512x1.size a ≤ S512x64.size a
  inb_S512x64_S512x1_0_38 : ∀ a, (![0, 38] : Fin 2 → Nat) a + S512x1.size a ≤ S512x64.size a
  inb_S512x64_S512x1_0_39 : ∀ a, (![0, 39] : Fin 2 → Nat) a + S512x1.size a ≤ S512x64.size a
  inb_S512x64_S512x1_0_40 : ∀ a, (![0, 40] : Fin 2 → Nat) a + S512x1.size a ≤ S512x64.size a
  inb_S512x64_S512x1_0_41 : ∀ a, (![0, 41] : Fin 2 → Nat) a + S512x1.size a ≤ S512x64.size a
  inb_S512x64_S512x1_0_42 : ∀ a, (![0, 42] : Fin 2 → Nat) a + S512x1.size a ≤ S512x64.size a
  inb_S512x64_S512x1_0_43 : ∀ a, (![0, 43] : Fin 2 → Nat) a + S512x1.size a ≤ S512x64.size a
  inb_S512x64_S512x1_0_44 : ∀ a, (![0, 44] : Fin 2 → Nat) a + S512x1.size a ≤ S512x64.size a
  inb_S512x64_S512x1_0_45 : ∀ a, (![0, 45] : Fin 2 → Nat) a + S512x1.size a ≤ S512x64.size a
  inb_S512x64_S512x1_0_46 : ∀ a, (![0, 46] : Fin 2 → Nat) a + S512x1.size a ≤ S512x64.size a
  inb_S512x64_S512x1_0_47 : ∀ a, (![0, 47] : Fin 2 → Nat) a + S512x1.size a ≤ S512x64.size a
  inb_S512x64_S512x1_0_48 : ∀ a, (![0, 48] : Fin 2 → Nat) a + S512x1.size a ≤ S512x64.size a
  inb_S512x64_S512x1_0_49 : ∀ a, (![0, 49] : Fin 2 → Nat) a + S512x1.size a ≤ S512x64.size a
  inb_S512x64_S512x1_0_50 : ∀ a, (![0, 50] : Fin 2 → Nat) a + S512x1.size a ≤ S512x64.size a
  inb_S512x64_S512x1_0_51 : ∀ a, (![0, 51] : Fin 2 → Nat) a + S512x1.size a ≤ S512x64.size a
  inb_S512x64_S512x1_0_52 : ∀ a, (![0, 52] : Fin 2 → Nat) a + S512x1.size a ≤ S512x64.size a
  inb_S512x64_S512x1_0_53 : ∀ a, (![0, 53] : Fin 2 → Nat) a + S512x1.size a ≤ S512x64.size a
  inb_S512x64_S512x1_0_54 : ∀ a, (![0, 54] : Fin 2 → Nat) a + S512x1.size a ≤ S512x64.size a
  inb_S512x64_S512x1_0_55 : ∀ a, (![0, 55] : Fin 2 → Nat) a + S512x1.size a ≤ S512x64.size a
  inb_S512x64_S512x1_0_56 : ∀ a, (![0, 56] : Fin 2 → Nat) a + S512x1.size a ≤ S512x64.size a
  inb_S512x64_S512x1_0_57 : ∀ a, (![0, 57] : Fin 2 → Nat) a + S512x1.size a ≤ S512x64.size a
  inb_S512x64_S512x1_0_58 : ∀ a, (![0, 58] : Fin 2 → Nat) a + S512x1.size a ≤ S512x64.size a
  inb_S512x64_S512x1_0_59 : ∀ a, (![0, 59] : Fin 2 → Nat) a + S512x1.size a ≤ S512x64.size a
  inb_S512x64_S512x1_0_60 : ∀ a, (![0, 60] : Fin 2 → Nat) a + S512x1.size a ≤ S512x64.size a
  inb_S512x64_S512x1_0_61 : ∀ a, (![0, 61] : Fin 2 → Nat) a + S512x1.size a ≤ S512x64.size a
  inb_S512x64_S512x1_0_62 : ∀ a, (![0, 62] : Fin 2 → Nat) a + S512x1.size a ≤ S512x64.size a
  inb_S512x64_S512x1_0_63 : ∀ a, (![0, 63] : Fin 2 → Nat) a + S512x1.size a ≤ S512x64.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x8192.size a
  hwx0_0 : ∀ i : grid0.Coords, EltTy.bits .f32 = 32 ∨ (Rect.block (s := S4096x8192) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S4096x64.size a
  hwx0_1 : ∀ i : grid0.Coords, EltTy.bits .f32 = 32 ∨ (Rect.block (s := S4096x64) S512x64.size (cc0_transform_1 i) (hinb0_1 i)).WholeWords (EltTy.packing .f32)

variable [Facts₀]

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S4096x8192 : Shape := ⟨2, ![4096, 8192]⟩
abbrev S_ : Shape := ⟨0, ![]⟩
abbrev S4096 : Shape := ⟨1, ![4096]⟩
abbrev S4096x1 : Shape := ⟨2, ![4096, 1]⟩
abbrev S33554432 : Shape := ⟨1, ![33554432]⟩
abbrev S262144 : Shape := ⟨1, ![262144]⟩
abbrev S33554432x1 : Shape := ⟨2, ![33554432, 1]⟩
abbrev S4096x64 : Shape := ⟨2, ![4096, 64]⟩

abbrev nBuf : Space → Nat
  | .hbm => 35
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S_, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S4096x8192, .i32⟩
  | .hbm, ⟨13, _⟩ => ⟨S4096x8192, .i32⟩
  | .hbm, ⟨14, _⟩ => ⟨S_, .i32⟩
  | .hbm, ⟨15, _⟩ => ⟨S4096x8192, .i32⟩
  | .hbm, ⟨16, _⟩ => ⟨S4096x8192, .i32⟩
  | .hbm, ⟨17, _⟩ => ⟨S4096, .i32⟩
  | .hbm, ⟨18, _⟩ => ⟨S4096x1, .i32⟩
  | .hbm, ⟨19, _⟩ => ⟨S_, .i32⟩
  | .hbm, ⟨20, _⟩ => ⟨S4096x1, .i32⟩
  | .hbm, ⟨21, _⟩ => ⟨S4096x1, .i32⟩
  | .hbm, ⟨22, _⟩ => ⟨S4096x8192, .i32⟩
  | .hbm, ⟨23, _⟩ => ⟨S4096x8192, .i32⟩
  | .hbm, ⟨24, _⟩ => ⟨S33554432, .i32⟩
  | .hbm, ⟨25, _⟩ => ⟨S_, .f32⟩
  | .hbm, ⟨26, _⟩ => ⟨S33554432, .f32⟩
  | .hbm, ⟨27, _⟩ => ⟨S_, .f32⟩
  | .hbm, ⟨28, _⟩ => ⟨S262144, .f32⟩
  | .hbm, ⟨29, _⟩ => ⟨S33554432x1, .i32⟩
  | .hbm, ⟨30, _⟩ => ⟨S262144, .f32⟩
  | .hbm, ⟨31, _⟩ => ⟨S4096x64, .f32⟩
  | .hbm, ⟨32, _⟩ => ⟨S_, .f32⟩
  | .hbm, ⟨33, _⟩ => ⟨S4096x64, .f32⟩
  | .hbm, ⟨34, _⟩ => ⟨S4096x64, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x8192_0_1 : S4096x1.BroadcastsInDim S4096x8192 (![0, 1] : Fin 2 → Fin S4096x8192.rank)
  shapeCasts_S4096x8192_S33554432 : S4096x8192.ShapeCasts S33554432
  bcast_S_S33554432 : S_.BroadcastsInDim S33554432 (![] : Fin 0 → Fin S33554432.rank)
  bcast_S_S262144 : S_.BroadcastsInDim S262144 (![] : Fin 0 → Fin S262144.rank)
  bcast_S33554432_S33554432x1_0 : S33554432.BroadcastsInDim S33554432x1 (![0] : Fin 1 → Fin S33554432x1.rank)
  shapeCasts_S262144_S4096x64 : S262144.ShapeCasts S4096x64
  bcast_S_S4096x64 : S_.BroadcastsInDim S4096x64 (![] : Fin 0 → Fin S4096x64.rank)
  scatter_S262144_S33554432x1_S33554432_n_0_0_1_wf : ScatterDims.WF S262144 S33554432x1 S33554432 [] [0] [0] 1

variable [Facts₀]

def scatter_S262144_S33554432x1_S33554432_n_0_0_1 : ScatterDims S262144 S33554432x1 S33554432 where
  updateWindowDims := []
  insertedWindowDims := [0]
  scatterDimsToOperandDims := [0]
  indexVectorDim := 1
  wf := scatter_S262144_S33554432x1_S33554432_n_0_0_1_wf

class Facts : Prop extends Facts₀ where

variable [Facts]
-- ==== Proof.Spec.lean ====
/-
  The histogram both programs compute, as one function of the input array.

  Each value `v` of the 4096 × 8192 input falls in the bin `⌊(v − (−3)) · s⌋`, read as a signed 32-bit integer and
  clamped to `[0, 63]`; `s` is the single-precision value nearest 32/3, the same word in both programs. Entry
  `(b, k)` of the result is the number of columns `n` of row `b` whose value falls in bin `k`, divided by 8192.
  The count is written as a sum of 0/1 indicators over the row, so that a sum taken tile by tile and a sum taken
  by scattering ones are both regroupings of it.
-/
import Idealize.ShloMosaic.PureOps.Ideal
import Idealize.ShloMosaic.Lib.ValueIdx

noncomputable section

open scoped BigOperators

namespace Cert.Hist

open Idealize.ShloMosaic Idealize.ShloMosaic.ValueIdx

/-- The bin of one value: `⌊(v + 3) · s⌋` as a signed 32-bit integer, clamped below by 0 and above by 63. -/
def bin (v : EReal) : BitVec 32 :=
  IntOp.minsi 63#32 (IntOp.maxsi 0#32 (FloatOps.fptosi (F := Ideal) (φ := .f32) 32
    (FloatOps.floor (F := Ideal) (φ := .f32)
      (FloatOps.mulf (F := Ideal) (φ := .f32)
        (FloatOps.subf (F := Ideal) (φ := .f32) v (FloatOps.ofBits (F := Ideal) .f32 0xC0400000#32))
        (FloatOps.ofBits (F := Ideal) .f32 0x412AAAAB#32)))))

/-- The indicator of "the value falls in bin `k`", as the programs form it: the one-bit comparison widened to 32 bits
    and converted to a float. -/
def hit (v : EReal) (k : BitVec 32) : EReal :=
  FloatOps.sitofp (F := Ideal) .f32 ((IntOp.cmpi .eq (bin v) k).setWidth 32)

/-- Column `n` of row `b`'s indicator for bin `k`, and `0` past the row's end: a function of every natural number, so
    that partial sums over initial segments of the row are sums over `Finset.range`. -/
def hitAt (x : (⟨2, ![4096, 8192]⟩ : Shape).Idx → EReal) (b : Fin 4096) (k : BitVec 32) (n : ℕ) : EReal :=
  if h : n < 8192 then hit (x (ix2 b ⟨n, h⟩)) k else 0

/-- How many of the first `N` columns of row `b` fall in bin `k`. -/
def countTo (x : (⟨2, ![4096, 8192]⟩ : Shape).Idx → EReal) (b : Fin 4096) (k : BitVec 32) (N : ℕ) : EReal :=
  ∑ n ∈ Finset.range N, hitAt x b k n

/-- The normalised histogram: entry `(b, k)` is the count of row `b`'s values in bin `k` over the row's length. -/
def G (x : (⟨2, ![4096, 8192]⟩ : Shape).Idx → EReal) : (⟨2, ![4096, 64]⟩ : Shape).Idx → EReal :=
  fun i => Ideal.div (countTo x (i 0) (BitVec.ofNat 32 (i 1).val) 8192) (Ideal.ofBits .f32 0x46000000#32)

end Cert.Hist

end
-- ==== Proof.RefSide.lean ====
/-
  The reference program computes the normalised histogram `Cert.Hist.G`.

  The reference forms, for every value of the 4096 × 8192 input, its bin (a signed clamp to `[0, 63]` of
  `⌊(v + 3) · s⌋`), adds 64 times the row number, flattens the array row by row, and scatters a one from every flat
  position into a table of 262144 zeros at the position its word names; the table is then read as 4096 × 64 and
  divided by 8192. Because a bin is at most 63, the word `row · 64 + bin` stays below 262144 (so it is the same read
  signed or unsigned, and every update lands inside the table) and determines both the row and the bin. Hence the
  updates that land on position `b · 64 + k` are exactly those at flat positions `b · 8192 + n` whose column `n` of
  row `b` falls in bin `k`; the scattered sum of ones over them is the sum of the 0/1 indicators over the row, which is
  the count `countTo x b k 8192`.
-/
import proofs.«117676_j3547642986677_1_alg».proof.Proof.Spec
import proofs.«117676_j3547642986677_1_alg».proof.Proof.Gen.ReferenceIdeal.Read
import Idealize.ShloMosaic.Lib.ValueIdx
import Idealize.ShloMosaic.Lib.Pipeline.Value
import Idealize.ShloMosaic.PureOps.Ideal.Laws

noncomputable section

open scoped BigOperators

namespace Cert.Hist.Ref

open Idealize.ShloMosaic Idealize.ShloMosaic.ValueIdx Cert.ReferenceIdeal Cert.ReferenceIdeal.Gen Cert.ReferenceIdeal.Read Cert.Hist

/-- A signed clamp to `[0, 63]` leaves a word whose unsigned value is at most 63. -/
theorem clamp_toNat_le (z : BitVec 32) : (IntOp.minsi 63#32 (IntOp.maxsi 0#32 z)).toNat ≤ 63 := by
  unfold IntOp.minsi IntOp.maxsi
  have hz := BitVec.toInt_eq_toNat_cond z
  have h63 : (63#32 : BitVec 32).toInt = 63 := by decide
  have h0 : (0#32 : BitVec 32).toInt = 0 := by decide
  have hlt := z.isLt
  split_ifs with h1 h2 h2
  · simp
  · simp
  · simp
  · simp only [BitVec.slt, decide_eq_true_eq, not_lt, h63, h0] at h1 h2
    split at hz <;> omega

theorem bin_toNat_le (v : EReal) : (bin v).toNat ≤ 63 := clamp_toNat_le _

/-- At the ideal instance a signed integer converts to the real number it denotes. -/
theorem sitofp_ideal (b : BitVec 32) : FloatOps.sitofp (F := Ideal) .f32 b = ((b.toInt : ℝ) : EReal) := rfl

theorem hit_eq (v : EReal) (k : BitVec 32) : hit v k = if bin v = k then 1 else 0 := by
  unfold hit IntOp.cmpi
  by_cases h : bin v = k
  · have hb : (bin v == k) = true := beq_iff_eq.mpr h
    have : (BitVec.ofBool (bin v == k)).setWidth 32 = 1#32 := by rw [hb]; decide
    rw [this, sitofp_ideal, if_pos h]
    have : (1#32 : BitVec 32).toInt = 1 := by decide
    rw [this]; simp
  · have hb : (bin v == k) = false := beq_eq_false_iff_ne.mpr h
    have : (BitVec.ofBool (bin v == k)).setWidth 32 = 0#32 := by rw [hb]; decide
    rw [this, sitofp_ideal, if_neg h]
    have : (0#32 : BitVec 32).toInt = 0 := by decide
    rw [this]; simp

theorem v6_eq_bin (x : (⟨S4096x8192, .f32⟩ : BufTy).Contents (Elt Ideal)) (p : S4096x8192.Idx) :
    val_main_v6 (F := Ideal) x p = bin (x p) := by
  rw [val_main_v6_apply, val_main_call0_v4_apply, val_main_call0_v3_apply, val_main_c_1_apply,
    val_main_call0_v2_apply, val_main_call0_v1_apply, val_main_call0_v0_apply, val_main_c_apply,
    val_main_v5_apply, val_main_v4_apply, val_main_v3_apply, val_main_v2_apply, val_main_cst_0_apply,
    val_main_v1_apply, val_main_v0_apply, val_main_cst_apply]
  rfl

/-! ### The scatter's result index

The scatter has a rank-1 operand of 262144 words, one scalar scatter index per update and no window axes: update `j`
lands at the operand position its index word denotes, read signed, and is dropped when that is outside the operand. -/

/-- The scatter's dimension numbers. -/
abbrev sd : ScatterDims S262144 S33554432x1 S33554432 := scatter_S262144_S33554432x1_S33554432_n_0_0_1

theorem sd_window (j : S33554432.Idx) (a : Fin 1) : sd.window j a = 0 := by
  unfold ScatterDims.window
  exact dif_neg (by
    have : sd.sKept = [] := by decide
    rw [this]; exact List.not_mem_nil)

theorem sd_siIdx (j0 : Fin 33554432) (c : Fin sd.scatterDimsToOperandDims.length) :
    sd.siIdx (ix1 j0) c = ix2 j0 (0 : Fin 1) := by
  funext b
  match b with
  | ⟨0, _⟩ => rfl
  | ⟨1, _⟩ =>
    have hc : c.val = 0 := by have := c.isLt; have : sd.scatterDimsToOperandDims.length = 1 := rfl; omega
    exact Fin.ext hc

theorem sd_start (idx : IVec S33554432x1 32) (j0 : Fin 33554432) :
    sd.start (ix1 j0) idx 0 = (idx (ix2 j0 (0 : Fin 1))).toInt := by
  unfold ScatterDims.start
  rw [dif_pos (by decide), sd_siIdx]

theorem sd_resultIdx_iff (idx : IVec S33554432x1 32) (j0 : Fin 33554432) (p0 : Fin 262144) :
    sd.resultIdx? (ix1 j0) idx = some (ix1 p0) ↔ (idx (ix2 j0 (0 : Fin 1))).toInt = (p0.val : Int) := by
  unfold ScatterDims.resultIdx?
  have hs := sd_start idx j0
  have hw : sd.window (ix1 j0) 0 = 0 := sd_window _ _
  split_ifs with h
  · rw [Option.some.injEq]
    constructor
    · intro e
      have hv : (sd.start (ix1 j0) idx 0 + (sd.window (ix1 j0) 0 : Int)).toNat = p0.val :=
        congrArg Fin.val (congrFun e 0)
      have h0 := h 0
      rw [hs, hw] at hv h0
      omega
    · intro e
      funext a
      have : a = 0 := Fin.fin_one_eq_zero a
      subst this
      apply Fin.ext
      show (sd.start (ix1 j0) idx 0 + (sd.window (ix1 j0) 0 : Int)).toNat = p0.val
      rw [hs, hw, e]; simp
  · constructor
    · intro e; cases e
    · intro e; exfalso; apply h; intro a
      have : a = 0 := Fin.fin_one_eq_zero a
      subst this
      rw [hs, hw, e]
      have := p0.isLt
      show (0 : Int) ≤ (p0.val : Int) + ((0 : Nat) : Int) ∧ (p0.val : Int) + ((0 : Nat) : Int) < ((262144 : Nat) : Int)
      omega

/-! ### The scatter index of one flat position -/

/-- The row of flat position `j0` of the 4096 × 8192 array laid out row by row. -/
abbrev rowOf (j0 : Fin 33554432) : Fin 4096 := ⟨j0.val / 8192, by have := j0.isLt; omega⟩
/-- The column of flat position `j0`. -/
abbrev colOf (j0 : Fin 33554432) : Fin 8192 := ⟨j0.val % 8192, Nat.mod_lt _ (by decide)⟩
/-- The flat position of row `b`, column `n`. -/
abbrev flatOf (b : Fin 4096) (n : Fin 8192) : Fin 33554432 :=
  ⟨b.val * 8192 + n.val, by have := b.isLt; have := n.isLt; omega⟩
/-- The flat position of row `b`, bin `k` in the 4096 × 64 table of counts. -/
abbrev posOf (b : Fin 4096) (k : Fin 64) : Fin 262144 :=
  ⟨b.val * 64 + k.val, by have := b.isLt; have := k.isLt; omega⟩

theorem rowOf_flatOf (b : Fin 4096) (n : Fin 8192) : rowOf (flatOf b n) = b :=
  Fin.ext (by show (b.val * 8192 + n.val) / 8192 = b.val; have := n.isLt; omega)
theorem colOf_flatOf (b : Fin 4096) (n : Fin 8192) : colOf (flatOf b n) = n :=
  Fin.ext (by show (b.val * 8192 + n.val) % 8192 = n.val; have := n.isLt; omega)
theorem flatOf_rowOf_colOf (j0 : Fin 33554432) : flatOf (rowOf j0) (colOf j0) = j0 :=
  Fin.ext (by show j0.val / 8192 * 8192 + j0.val % 8192 = j0.val; omega)

/-- Row `B < 4096` and bin `w ≤ 63` give the word `B · 64 + w` without wrap-around, and it is non-negative read signed. -/
theorem flatBin_toInt (B : Nat) (hB : B < 4096) (w : BitVec 32) (hw : w.toNat ≤ 63) :
    (IntOp.addi (IntOp.muli (BitVec.ofNat 32 B) 64#32) w).toInt = ((B * 64 + w.toNat : Nat) : Int) := by
  unfold IntOp.addi IntOp.muli
  rw [BitVec.toInt_eq_toNat_cond]
  simp only [BitVec.toNat_add, BitVec.toNat_mul, BitVec.toNat_ofNat, Nat.reducePow, Nat.reduceMod]
  split_ifs with h <;> omega

/-- The flat position `j0` of the reshaped bins reads row `j0 / 8192`, column `j0 % 8192`. -/
theorem idx13 (j0 : Fin 33554432) :
    idx_main_v13 (idx_main_v16 (ix2 j0 (0 : Fin 1))) = ix2 (rowOf j0) (colOf j0) := by
  funext a
  match a with
  | ⟨0, _⟩ => rfl
  | ⟨1, _⟩ => rfl

/-- The scatter index of flat position `j0`: the row times 64 plus the bin of the value there. -/
theorem v16_at (x : (⟨S4096x8192, .f32⟩ : BufTy).Contents (Elt Ideal)) (j0 : Fin 33554432) :
    val_main_v16 (F := Ideal) x (ix2 j0 (0 : Fin 1))
      = IntOp.addi (IntOp.muli (BitVec.ofNat 32 (j0.val / 8192)) 64#32) (bin (x (ix2 (rowOf j0) (colOf j0)))) := by
  rw [val_main_v16_apply, val_main_v13_apply, val_main_v12_apply, v6_eq_bin, val_main_v11_apply,
    val_main_v10_apply, val_main_v8_apply, val_main_v7_apply, val_main_v9_apply, val_main_c_2_apply, idx13]

theorem v16_toInt (x : (⟨S4096x8192, .f32⟩ : BufTy).Contents (Elt Ideal)) (j0 : Fin 33554432) :
    (val_main_v16 (F := Ideal) x (ix2 j0 (0 : Fin 1))).toInt
      = ((j0.val / 8192 * 64 + (bin (x (ix2 (rowOf j0) (colOf j0)))).toNat : Nat) : Int) := by
  rw [v16_at]
  exact flatBin_toInt _ (by have := j0.isLt; omega) _ (bin_toNat_le _)

/-! ### The scattered count -/

/-- Update `j0` lands on position `b · 64 + k` of the table exactly when it lies in row `b` and its value falls in bin `k`:
    the bin is at most 63, so `row · 64 + bin` determines both. -/
theorem lands_iff (x : (⟨S4096x8192, .f32⟩ : BufTy).Contents (Elt Ideal)) (b : Fin 4096) (k : Fin 64) (j0 : Fin 33554432) :
    sd.resultIdx? (ix1 j0) (val_main_v16 (F := Ideal) x) = some (ix1 (posOf b k))
      ↔ rowOf j0 = b ∧ bin (x (ix2 (rowOf j0) (colOf j0))) = BitVec.ofNat 32 k.val := by
  rw [sd_resultIdx_iff, v16_toInt]
  have hc := bin_toNat_le (x (ix2 (rowOf j0) (colOf j0)))
  generalize bin (x (ix2 (rowOf j0) (colOf j0))) = w at hc ⊢
  have hk := k.isLt
  constructor
  · intro e
    have e' : j0.val / 8192 * 64 + w.toNat = b.val * 64 + k.val := by exact_mod_cast e
    refine ⟨Fin.ext (by show j0.val / 8192 = b.val; omega), ?_⟩
    apply BitVec.eq_of_toNat_eq
    rw [BitVec.toNat_ofNat]
    omega
  · rintro ⟨e1, e2⟩
    have e1' : j0.val / 8192 = b.val := congrArg Fin.val e1
    rw [e2, BitVec.toNat_ofNat, e1']
    have : k.val % 2 ^ 32 = k.val := by omega
    rw [this]

/-- The word `0x3F800000` is the number one. -/
theorem one_f32 : Ideal.ofBits .f32 0x3F800000#32 = 1 := by
  simp [Ideal.ofBits, Ideal.ieee, -EReal.coe_mul]; norm_num

theorem v14_at (j : S33554432.Idx) : val_main_v14 (F := Ideal) j = 1 := by
  rw [val_main_v14_apply, val_main_cst_3_apply]; exact one_f32

theorem v15_at (p : S262144.Idx) : val_main_v15 (F := Ideal) p = 0 := by
  rw [val_main_v15_apply, val_main_cst_4_apply]; exact Ideal.ofBits_zero_f32

/-- Position `b · 64 + k` of the scattered table counts the columns of row `b` whose value falls in bin `k`: the updates
    that land there are the ones at flat positions `b · 8192 + n` with column `n` in bin `k`, each contributing one. -/
theorem v17_at (x : (⟨S4096x8192, .f32⟩ : BufTy).Contents (Elt Ideal)) (b : Fin 4096) (k : Fin 64) :
    val_main_v17 (F := Ideal) x (ix1 (posOf b k)) = countTo x b (BitVec.ofNat 32 k.val) 8192 := by
  have hR : countTo x b (BitVec.ofNat 32 k.val) 8192
      = ∑ n ∈ (Finset.univ : Finset (Fin 8192)).filter (fun n => bin (x (ix2 b n)) = BitVec.ofNat 32 k.val),
          (1 : EReal) := by
    unfold countTo
    rw [Finset.sum_range, Finset.sum_filter]
    refine Finset.sum_congr rfl (fun n _ => ?_)
    unfold hitAt
    rw [dif_pos n.isLt, hit_eq]
  rw [hR,
    show val_main_v17 (F := Ideal) x = Ideal.hostScatterAdd sd (val_main_v15 (F := Ideal))
      (val_main_v16 (F := Ideal) x) (val_main_v14 (F := Ideal)) from rfl]
  unfold Ideal.hostScatterAdd
  rw [v15_at, zero_add, Finset.sum_congr rfl (fun j _ => v14_at j)]
  symm
  refine Finset.sum_nbij' (fun n => ix1 (flatOf b n)) (fun q => colOf (q 0)) ?_ ?_ ?_ ?_ (fun _ _ => rfl)
  · intro n hn
    refine Finset.mem_filter.mpr ⟨Finset.mem_univ _, (lands_iff x b k (flatOf b n)).mpr ⟨rowOf_flatOf b n, ?_⟩⟩
    rw [rowOf_flatOf, colOf_flatOf]
    exact (Finset.mem_filter.mp hn).2
  · intro q hq
    obtain ⟨q0, rfl⟩ : ∃ q0 : Fin 33554432, q = ix1 q0 := ⟨q 0, eq_ix1 q⟩
    obtain ⟨e1, e2⟩ := (lands_iff x b k q0).mp (Finset.mem_filter.mp hq).2
    subst e1
    exact Finset.mem_filter.mpr ⟨Finset.mem_univ _, e2⟩
  · intro n _
    exact colOf_flatOf b n
  · intro q hq
    obtain ⟨q0, rfl⟩ : ∃ q0 : Fin 33554432, q = ix1 q0 := ⟨q 0, eq_ix1 q⟩
    obtain ⟨e1, _⟩ := (lands_iff x b k q0).mp (Finset.mem_filter.mp hq).2
    subst e1
    show ix1 (flatOf (rowOf q0) (colOf q0)) = ix1 q0
    rw [flatOf_rowOf_colOf]

/-! ### The reference's result -/

theorem idx18 (b : Fin 4096) (k : Fin 64) : idx_main_v18 (ix2 b k) = ix1 (posOf b k) := by
  funext a
  match a with
  | ⟨0, _⟩ => rfl

/-- The reference program's result is the normalised histogram. -/
theorem val_eq_G (x : (⟨Cert.ReferenceIdeal.S4096x8192, .f32⟩ : BufTy).Contents (Elt Ideal)) :
    Cert.ReferenceIdeal.Read.val_main_v20 (F := Ideal) x = Cert.Hist.G x := by
  funext i
  obtain ⟨b, k, rfl⟩ : ∃ (b : Fin 4096) (k : Fin 64), i = ix2 b k := ⟨i 0, i 1, eq_ix2 i⟩
  rw [val_main_v20_apply, val_main_v18_apply, val_main_v19_apply, val_main_cst_5_apply, idx18, v17_at]
  rfl

end Cert.Hist.Ref

end
-- ==== Proof.KBody.lean ====
/-
  One grid point's update of the per-row bin counts.

  At a grid point the kernel holds a 512 × 1024 tile `X` of the input and a 512 × 64 table `acc` of counts. For each
  bin `k` it adds to column `k` of the table, row by row, the number of the tile's 1024 lanes whose value falls in
  bin `k` (a lane sum of 0/1 indicators). This module reads one such column update at an index, and the table after
  all 64 updates as one function of `X` and `acc`.
-/
import proofs.«117676_j3547642986677_1_alg».proof.Proof.Spec
import proofs.«117676_j3547642986677_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.Hist.Body

open Cert.KernelIdeal Cert.KernelIdeal.Gen
open Idealize.ShloMosaic Idealize.ShloMosaic.ValueIdx Idealize.ShloMosaic.Tactic Idealize.ShloMosaic.TcCoe Cert.Hist

/-- The bins of a tile, entry by entry, are `bin` of the tile's entries. -/
theorem bins_apply (X : Vec Ideal S512x1024 .f32) (p : S512x1024.Idx) : k0_pay3 (F := Ideal) X p = bin (X p) := rfl

/-- Column `k`'s update: the column plus, row by row, the lane sum of the indicator of bin `k`. -/
def colUpd (b : IVec S512x1024 32) (k : BitVec 32) (col : Vec Ideal S512x1 .f32) : FVec Ideal S512x1 .f32 :=
  shapeCast S512x1 (addf col (shapeCast S512x1
    (multiReduction .add [1] S512 (sitofp .f32 (extui 32 (cmpi .eq b (broadcast S512x1024 k)) natLt_1_32) : FVec Ideal S512x1024 .f32)
      0x00000000#32 reduces_S512x1024_S512 (.inl rfl) rfl) shapeCasts_S512_S512x1)) shapeCasts_S512x1_S512x1

/-- The source index of the lane sum over row `r` at lane `l` is `(r, l)`. -/
theorem lift_eq (r : Fin 512) (l : Fin 1024) :
    reduces_S512x1024_S512.lift (ix1 r) l = ix2 r l := by
  funext c
  match c with
  | ⟨0, _⟩ => rfl
  | ⟨1, _⟩ => rfl

/-- One column update read at row `r`: the column's entry plus the number of lanes of row `r` of the tile that fall in
    bin `k`. -/
theorem colUpd_apply (X : Vec Ideal S512x1024 .f32) (k : BitVec 32) (col : Vec Ideal S512x1 .f32) (r : Fin 512) (z : Fin 1) :
    colUpd (k0_pay3 (F := Ideal) X) k col (ix2 r z) = col (ix2 r z) + ∑ l : Fin 1024, hit (X (ix2 r l)) k := by
  unfold colUpd
  rw [shapeCast_self, addf_apply]
  congr 1
  rw [shapeCast_apply _ shapeCasts_S512_S512x1 (ix2 r z) (ix1 r) (by
    rw [Shape.rowMajor_val_one, Shape.rowMajor_val_two]; have := z.isLt; show r.val = r.val * 1 + z.val; omega)]
  refine (Ideal.multiReduction_add_single _ 0x00000000#32 reduces_S512x1024_S512 (.inl rfl) rfl (ix1 r)).trans ?_
  show ∑ l : Fin 1024, (sitofp .f32 (extui 32 (cmpi .eq (k0_pay3 (F := Ideal) X) (broadcast S512x1024 k)) natLt_1_32) : FVec Ideal S512x1024 .f32)
      (reduces_S512x1024_S512.lift (ix1 r) l) = ∑ l : Fin 1024, hit (X (ix2 r l)) k
  refine Finset.sum_congr rfl fun l _ => ?_
  rw [lift_eq r l]
  rfl

/-- Entry `(r, k)` of the table after one point: the entry before plus the number of the tile's lanes of row `r` that
    fall in bin `k`. -/
def stepAt (X : Vec Ideal S512x1024 .f32) (acc : Vec Ideal S512x64 .f32) (r : Fin 512) (k : Fin 64) : EReal :=
  acc (ix2 r k) + ∑ l : Fin 1024, hit (X (ix2 r l)) (BitVec.ofNat 32 k.val)

/-- The table after one point's 64 column updates, as one function of the tile and of the table before. -/
def step (X : Vec Ideal S512x1024 .f32) (acc : Vec Ideal S512x64 .f32) : Vec Ideal S512x64 .f32 :=
  fun y => stepAt X acc (y 0) (y 1)

/-- Column `k`'s rectangle places `(r, 0)` at `(r, k)`. -/
theorem col_idx (k : ℕ) (hk : k < 64) (inb : ∀ a, (![0, k] : Fin 2 → ℕ) a + S512x1.size a ≤ S512x64.size a)
    (r : Fin 512) (z : Fin 1) :
    (Rect.unit (s := S512x64) ![0, k] S512x1.size inb).idx (ix2 r z) = ix2 r (⟨k, hk⟩ : Fin 64) := by
  funext a
  match a with
  | ⟨0, _⟩ => exact Fin.ext (by show 0 + 1 * r.val = r.val; omega)
  | ⟨1, _⟩ => exact Fin.ext (by have := z.isLt; show k + 1 * z.val = k; omega)

/-- Column `k`'s update, of the column as the table held it, is the table after the point read on that column. -/
theorem piece_ok (k : ℕ) (hk : k < 64) (inb : ∀ a, (![0, k] : Fin 2 → ℕ) a + S512x1.size a ≤ S512x64.size a)
    (X : Vec Ideal S512x1024 .f32) (acc : Vec Ideal S512x64 .f32) (x : S512x1.Idx) :
    colUpd (k0_pay3 (F := Ideal) X) (BitVec.ofNat 32 k) (View.ld acc (Rect.unit (s := S512x64) ![0, k] S512x1.size inb)) x
      = step X acc ((Rect.unit (s := S512x64) ![0, k] S512x1.size inb).idx x) := by
  obtain ⟨r, z, rfl⟩ : ∃ (r : Fin 512) (z : Fin 1), x = ix2 r z := ⟨x 0, x 1, eq_ix2 x⟩
  rw [colUpd_apply, col_idx k hk inb r z]
  show acc ((Rect.unit (s := S512x64) ![0, k] S512x1.size inb).idx (ix2 r z)) + _ = _
  rw [col_idx k hk inb r z]
  rfl

/-- What a middle point of a row of tiles (neither the first nor the last of its eight) leaves in the table: the 64
    column updates of the table the point before left. -/
theorem sout_B (c : Dev nD) (i : grid0.Coords) (arg2 : Memref sig .tc .vmem S512x1024 .f32) (harg2 : arg2.IsWhole)
    (arg3 : Memref sig .tc .vmem S512x64 .f32) (harg3 : arg3.IsWhole) (arg4 : Memref sig .tc .vmem S512x64 .f32)
    (harg4 : arg4.IsWhole) (hc0 : ¬cond0_0 i) (hc1 : ¬cond0_1 i)
    (x0 : Vec Ideal S512x1024 .f32) (xs0 : Vec Ideal S512x64 .f32) :
    sout0_B_0 (F := Ideal) c i arg2 harg2 arg3 harg3 arg4 harg4 hc0 hc1 x0 xs0 = step x0 xs0 := by
  have hz : (![0, 0] : Fin 2 → ℕ) = fun _ => 0 := by funext a; match a with | ⟨0, _⟩ => rfl | ⟨1, _⟩ => rfl
  unfold sout0_B_0
  rw [View.read_writes_eq_canon _ _ _ (scover0_B_0 c i arg2 harg2 arg3 harg3 arg4 harg4 hc0 hc1 x0 xs0)]
  funext y
  refine View.canon_apply_of_pieces (step x0 xs0) _ ?_ y (scover0_B_0 c i arg2 harg2 arg3 harg3 arg4 harg4 hc0 hc1 x0 xs0 y)
  unfold kernelRun0_B
  dsimp only
  sl_unfold_words
  simp only [View.readAt_eq_ld, harg2.read_unread, harg4.read_unread, View.ld_unit_zero (S := S512x1024) hz]
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals exact fun x => piece_ok _ (by omega) _ x0 xs0 x

end Cert.Hist.Body

end
-- ==== Proof.KBodyA.lean ====
/-
  The first tile of a row of tiles: the table is reset to zero and then receives the 64 column updates, so what the
  point leaves is the column updates of the zero table.

  Here each column update reads its column back through the stores made before it at the same point (the reset and
  the earlier columns), so the columns are taken one at a time: after the reset and the first `k` column updates the
  table holds the updated counts in its first `k` columns and zero elsewhere.
-/
import proofs.«117676_j3547642986677_1_alg».proof.Proof.KBody

set_option maxRecDepth 16384

noncomputable section

open scoped BigOperators

namespace Cert.Hist.Body

open Cert.KernelIdeal Cert.KernelIdeal.Gen
open Idealize.ShloMosaic Idealize.ShloMosaic.ValueIdx Idealize.ShloMosaic.Tactic Idealize.ShloMosaic.TcCoe Cert.Hist

/-- The table with its first `k` columns updated from zero and the others still zero. -/
def partialTab (X : Vec Ideal S512x1024 .f32) (k : ℕ) : Vec Ideal S512x64 .f32 :=
  fun y => if (y 1).val < k then step X (fun _ => 0) y else 0

theorem partialTab_zero (X : Vec Ideal S512x1024 .f32) : partialTab X 0 = fun _ => 0 := by
  funext y; unfold partialTab; rw [if_neg (Nat.not_lt_zero _)]

theorem partialTab_full (X : Vec Ideal S512x1024 .f32) : partialTab X 64 = step X (fun _ => 0) := by
  funext y; unfold partialTab; rw [if_pos (idx2_lt1 y)]

/-- One more column: if the stores so far leave the table with `k` columns updated, the store of column `k`'s update
    — of the column as a load through those stores reads it — leaves it with `k + 1` columns updated. -/
theorem peel {κ : Kind} {sp : Space} (v : View sig κ sp S512x64 .f32) (k : ℕ) (hk : k < 64)
    (inb : ∀ a, (![0, k] : Fin 2 → ℕ) a + S512x1.size a ≤ S512x64.size a) (X : Vec Ideal S512x1024 .f32)
    (P : Vec Ideal S512x1 .f32 → Vec Ideal S512x1 .f32)
    (hP : ∀ col, P col = colUpd (k0_pay3 (F := Ideal) X) (BitVec.ofNat 32 k) col)
    (L : List (View.Piece (Elt Ideal) S512x64 .f32)) (hL : View.canon L = partialTab X k) :
    View.canon ((⟨Rect.unit (s := S512x64) ![0, k] S512x1.size inb,
        P (v.readCov L (Rect.unit (s := S512x64) ![0, k] S512x1.size inb).toLoadRect)⟩ : View.Piece (Elt Ideal) S512x64 .f32) :: L)
      = partialTab X (k + 1) := by
  rw [View.readCov_eq_canon' v L _, hL, hP]
  funext y
  by_cases hy : y ∈ (Rect.unit (s := S512x64) ![0, k] S512x1.size inb).set
  · obtain ⟨x, rfl⟩ := (Rect.unit (s := S512x64) ![0, k] S512x1.size inb).exists_idx_of_mem hy
    obtain ⟨r, z, rfl⟩ : ∃ (r : Fin 512) (z : Fin 1), x = ix2 r z := ⟨x 0, x 1, eq_ix2 x⟩
    refine (View.canon_cons_emb (Rect.unit (s := S512x64) ![0, k] S512x1.size inb) _ L (ix2 r z)).trans ?_
    rw [colUpd_apply]
    show partialTab X k ((Rect.unit (s := S512x64) ![0, k] S512x1.size inb).idx (ix2 r z)) + _
      = partialTab X (k + 1) ((Rect.unit (s := S512x64) ![0, k] S512x1.size inb).idx (ix2 r z))
    rw [col_idx k hk inb r z]
    unfold partialTab
    rw [if_neg (by show ¬ k < k; omega), if_pos (by show k < k + 1; omega)]
    rfl
  · refine (View.canon_cons_of_not_mem
      (⟨Rect.unit (s := S512x64) ![0, k] S512x1.size inb, _⟩ : View.Piece (Elt Ideal) S512x64 .f32) L hy).trans ?_
    rw [hL]
    have hne : (y 1).val ≠ k := by
      intro h
      refine hy (Rect.mem_set_unit.mpr fun a => ?_)
      match a with
      | ⟨0, _⟩ => exact ⟨Nat.zero_le _, by have := idx2_lt0 y; show (y 0).val < 0 + 512; omega⟩
      | ⟨1, _⟩ => exact ⟨by show k ≤ (y 1).val; omega, by show (y 1).val < k + 1; omega⟩
    unfold partialTab
    by_cases hlt : (y 1).val < k
    · rw [if_pos hlt, if_pos (by omega)]
    · rw [if_neg hlt, if_neg (by omega)]

/-- What the first point of a row of tiles leaves in the table: the 64 column updates of the zero table. -/
theorem sout_A (c : Dev nD) (i : grid0.Coords) (arg2 : Memref sig .tc .vmem S512x1024 .f32) (harg2 : arg2.IsWhole)
    (arg3 : Memref sig .tc .vmem S512x64 .f32) (harg3 : arg3.IsWhole) (arg4 : Memref sig .tc .vmem S512x64 .f32)
    (harg4 : arg4.IsWhole) (hc0 : cond0_0 i) (hc1 : ¬cond0_1 i) (x0 : Vec Ideal S512x1024 .f32) :
    sout0_A_0 (F := Ideal) c i arg2 harg2 arg3 harg3 arg4 harg4 hc0 hc1 x0 = step x0 (fun _ => 0) := by
  have hz : (![0, 0] : Fin 2 → ℕ) = fun _ => 0 := by funext a; match a with | ⟨0, _⟩ => rfl | ⟨1, _⟩ => rfl
  unfold sout0_A_0
  rw [View.read_writes_eq_canon _ _ _ (scover0_A_0 c i arg2 harg2 arg3 harg3 arg4 harg4 hc0 hc1 x0)]
  unfold kernelRun0_A
  dsimp only
  sl_unfold_words
  simp only [View.readAt_eq_ld, harg2.read_unread, View.ld_unit_zero (S := S512x1024) hz]
  refine Eq.trans ?_ (partialTab_full x0)
  iterate 64 (refine peel _ _ (by omega) _ x0 _ (by intro _; rfl) _ ?_)
  rw [View.canon_unit_zero hz, partialTab_zero]
  funext y
  show Ideal.ofBits .f32 0x00000000#32 = 0
  exact Ideal.ofBits_zero_f32

end Cert.Hist.Body

end
-- ==== Proof.KBodyC.lean ====
/-
  The last tile of a row of tiles: the table receives the 64 column updates, and the output block is the updated
  table divided by the row length 8192.
-/
import proofs.«117676_j3547642986677_1_alg».proof.Proof.KBody

set_option maxRecDepth 16384

noncomputable section

open scoped BigOperators

namespace Cert.Hist.Body

open Cert.KernelIdeal Cert.KernelIdeal.Gen
open Idealize.ShloMosaic Idealize.ShloMosaic.ValueIdx Idealize.ShloMosaic.Tactic Idealize.ShloMosaic.TcCoe Cert.Hist

/-- The table read back whole after column stores that tile it, each the matching column of `step X acc`, is
    `step X acc`; the output block is that table over 8192, entry by entry. -/
theorem out_of_pieces {κ : Kind} {sp : Space} (v : View sig κ sp S512x64 .f32)
    (inb : ∀ a, (![0, 0] : Fin 2 → ℕ) a + S512x64.size a ≤ S512x64.size a)
    (X : Vec Ideal S512x1024 .f32) (acc : Vec Ideal S512x64 .f32) (L : List (View.Piece (Elt Ideal) S512x64 .f32))
    (hcov : ∀ y, ∃ p ∈ L, y ∈ p.1.set) (hp : ∀ p ∈ L, ∀ x : p.1.shape.Idx, p.2 x = step X acc (p.1.emb x)) :
    k0_pay1 (F := Ideal) (v.readCov L (Rect.unit (s := S512x64) ![0, 0] S512x64.size inb).toLoadRect)
      = fun y => Ideal.div (step X acc y) (Ideal.ofBits .f32 0x46000000#32) := by
  have hz : (![0, 0] : Fin 2 → ℕ) = fun _ => 0 := by funext a; match a with | ⟨0, _⟩ => rfl | ⟨1, _⟩ => rfl
  have hc : View.canon L = step X acc := funext fun y => View.canon_apply_of_pieces (step X acc) L hp y (hcov y)
  rw [View.readCov_eq_canon_ld v L _ hcov, View.ld_unit_zero (S := S512x64) hz, hc]
  rfl

/-- What the last point of a row of tiles leaves in the table: the 64 column updates of the table the point before
    left. -/
theorem sout_C (c : Dev nD) (i : grid0.Coords) (arg2 : Memref sig .tc .vmem S512x1024 .f32) (harg2 : arg2.IsWhole)
    (arg3 : Memref sig .tc .vmem S512x64 .f32) (harg3 : arg3.IsWhole) (arg4 : Memref sig .tc .vmem S512x64 .f32)
    (harg4 : arg4.IsWhole) (hc0 : ¬cond0_0 i) (hc1 : cond0_1 i)
    (x0 : Vec Ideal S512x1024 .f32) (xs0 : Vec Ideal S512x64 .f32) :
    sout0_C_0 (F := Ideal) c i arg2 harg2 arg3 harg3 arg4 harg4 hc0 hc1 x0 xs0 = step x0 xs0 := by
  have hz : (![0, 0] : Fin 2 → ℕ) = fun _ => 0 := by funext a; match a with | ⟨0, _⟩ => rfl | ⟨1, _⟩ => rfl
  unfold sout0_C_0
  rw [View.read_writes_eq_canon _ _ _ (scover0_C_0 c i arg2 harg2 arg3 harg3 arg4 harg4 hc0 hc1 x0 xs0)]
  funext y
  refine View.canon_apply_of_pieces (step x0 xs0) _ ?_ y (scover0_C_0 c i arg2 harg2 arg3 harg3 arg4 harg4 hc0 hc1 x0 xs0 y)
  unfold kernelRun0_C
  dsimp only
  sl_unfold_words
  simp only [View.readAt_eq_ld, harg2.read_unread, harg4.read_unread, View.ld_unit_zero (S := S512x1024) hz]
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals exact fun x => piece_ok _ (by omega) _ x0 xs0 x

/-- What the last point of a row of tiles writes to the output block: the updated table over 8192. -/
theorem out_C (c : Dev nD) (i : grid0.Coords) (arg2 : Memref sig .tc .vmem S512x1024 .f32) (harg2 : arg2.IsWhole)
    (arg3 : Memref sig .tc .vmem S512x64 .f32) (harg3 : arg3.IsWhole) (arg4 : Memref sig .tc .vmem S512x64 .f32)
    (harg4 : arg4.IsWhole) (hc0 : ¬cond0_0 i) (hc1 : cond0_1 i)
    (x0 : Vec Ideal S512x1024 .f32) (xs0 : Vec Ideal S512x64 .f32) :
    out0_C_1 (F := Ideal) c i arg2 harg2 arg3 harg3 arg4 harg4 hc0 hc1 x0 xs0
      = fun y => Ideal.div (step x0 xs0 y) (Ideal.ofBits .f32 0x46000000#32) := by
  have hz : (![0, 0] : Fin 2 → ℕ) = fun _ => 0 := by funext a; match a with | ⟨0, _⟩ => rfl | ⟨1, _⟩ => rfl
  unfold out0_C_1
  rw [View.read_writes_eq_canon _ _ _ (cover0_C_1 c i arg2 harg2 arg3 harg3 arg4 harg4 hc0 hc1 x0 xs0)]
  unfold kernelRun0_C
  dsimp only
  sl_unfold_words
  simp only [View.readAt_eq_ld, harg2.read_unread, harg4.read_unread, View.ld_unit_zero (S := S512x1024) hz]
  rw [View.canon_unit_zero hz]
  refine out_of_pieces _ _ x0 xs0 _ (View.cover_of_tiledL _ S512x1.size (by sl_kernel_rfl)) ?_
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals exact fun x => piece_ok _ (by omega) _ x0 xs0 x

end Cert.Hist.Body

end
-- ==== Proof.KFold.lean ====
/-
  From one grid point to the kernel's result array.

  The kernel walks an 8 × 8 grid; point `t` holds tile `(t / 8, t % 8)` of the 4096 × 8192 input (512 rows by 1024
  columns) and a 512 × 64 table of counts that it carries along a row of tiles: reset at the first tile of the row,
  updated at every tile, and at the last tile divided by 8192 and written to rows `(t / 8) · 512 …` of the result. By
  induction on the point, after point `t` the table holds at `(r, k)` the number of the first `(t % 8 + 1) · 1024` columns
  of row `(t / 8) · 512 + r` whose value falls in bin `k`: the count over an initial segment of the row grows by one
  tile's lanes at a time. At the last tile of a row of tiles the segment is the whole row, so the block written back
  is the normalised histogram's; these blocks cover the result array, one per row of tiles.
-/
import proofs.«117676_j3547642986677_1_alg».proof.Proof.KBodyA
import proofs.«117676_j3547642986677_1_alg».proof.Proof.KBodyC
import proofs.«117676_j3547642986677_1_alg».proof.Proof.Gen.KernelIdeal.Value
import Idealize.ShloMosaic.Lib.Pipeline.Value
import Idealize.ShloMosaic.Lib.ValueIdx

noncomputable section

open scoped BigOperators

namespace Cert.Hist.Kern

open Cert.KernelIdeal Cert.KernelIdeal.Gen
open Idealize.ShloMosaic Idealize.ShloMosaic.TcCoe Idealize.SL.Sem Idealize.ShloMosaic.ValueIdx
open Idealize.ShloMosaic.Pipeline (Dat)
open Cert.Hist Cert.Hist.Body

variable (m : (ℓ : Loc nD τ sig) → Buf (Elt Ideal) ℓ) (ρ : Dev nD → PrngReg)

/-- The argument array as the kernel finds it. -/
abbrev xarr (c : Dev nD) : Vec Ideal S4096x8192 .f32 := V m c main_arg0
/-- The input tile the kernel holds at grid point `t`. -/
abbrev xblk (c : Dev nD) (t : Fin cfg0.N) : Vec Ideal S512x1024 .f32 := iblk m c 0 t

theorem lt64 (t : Fin cfg0.N) : t.val < 64 := lt_of_lt_of_eq t.isLt (show cfg0.N = 64 from N_0)

/-- Grid point `t` is tile `(t / 8, t % 8)` of the input and row block `t / 8` of the output. -/
theorem idx_facts : ∀ t : Fin cfg0.N, win0_0.index t (0 : Fin 2) = t.val / 8 ∧ win0_0.index t (1 : Fin 2) = t.val % 8
    ∧ win0_1.index t (0 : Fin 2) = t.val / 8 ∧ win0_1.index t (1 : Fin 2) = 0 :=
  (by decide +kernel : ∀ t : Fin grid0.N, _)

/-- Row `r` of the row block of grid point `n`, as a row of the whole array. -/
abbrev rowAt (n : ℕ) (h : n < cfg0.N) (r : Fin 512) : Fin 4096 :=
  ⟨n / 8 * 512 + r.val, by have := lt_of_lt_of_eq h (show cfg0.N = 64 from N_0); have := r.isLt; omega⟩
/-- Lane `l` of the tile of grid point `n`, as a column of the whole array. -/
abbrev colAt (n : ℕ) (l : Fin 1024) : Fin 8192 :=
  ⟨n % 8 * 1024 + l.val, by have := l.isLt; omega⟩

/-- The tile at grid point `t` is the array's rows `(t / 8) · 512 …` and columns `(t % 8) · 1024 …`. -/
theorem xblk_apply (c : Dev nD) (t : Fin cfg0.N) (r : Fin 512) (l : Fin 1024) :
    xblk m c t (ix2 r l) = xarr m c (ix2 (rowAt t.val t.isLt r) (colAt t.val l)) := by
  obtain ⟨e0, e1, -, -⟩ := idx_facts t
  show V m c main_arg0 (((cfg0.win 0).blk t).view.emb (ix2 r l)) = V m c main_arg0 _
  refine congrArg (V m c main_arg0) ?_
  funext a
  apply Fin.ext
  match a with
  | ⟨0, _⟩ => show win0_0.index t (0 : Fin 2) * 512 + 1 * r.val = t.val / 8 * 512 + r.val; rw [e0]; omega
  | ⟨1, _⟩ => show win0_0.index t (1 : Fin 2) * 1024 + 1 * l.val = t.val % 8 * 1024 + l.val; rw [e1]; omega

/-! ### Counts over initial segments of a row -/

theorem countTo_zero (x : (⟨2, ![4096, 8192]⟩ : Shape).Idx → EReal) (b : Fin 4096) (k : BitVec 32) :
    countTo x b k 0 = 0 := by
  unfold countTo
  rw [Finset.range_zero, Finset.sum_empty]

/-- The count over the first `N + 1024` columns is the count over the first `N` plus the hits of the next 1024. -/
theorem countTo_add (x : (⟨2, ![4096, 8192]⟩ : Shape).Idx → EReal) (b : Fin 4096) (k : BitVec 32) (N : ℕ)
    (hN : N + 1024 ≤ 8192) :
    countTo x b k (N + 1024)
      = countTo x b k N + ∑ l : Fin 1024, hit (x (ix2 b (⟨N + l.val, by have := l.isLt; omega⟩ : Fin 8192))) k := by
  unfold countTo
  rw [Finset.sum_range_add, Finset.sum_range (n := 1024)]
  refine congrArg (fun z => (∑ n ∈ Finset.range N, hitAt x b k n) + z) ?_
  refine Finset.sum_congr rfl (fun l _ => ?_)
  unfold hitAt
  rw [dif_pos (by have := l.isLt; omega)]

/-- One grid point's update of an entry that holds the count over the tiles before: the count over the tiles up to and
    including this one. -/
theorem stepAt_count (c : Dev nD) (t : Fin cfg0.N) (acc : Vec Ideal S512x64 .f32) (r : Fin 512) (k : Fin 64)
    (hacc : acc (ix2 r k) = countTo (xarr m c) (rowAt t.val t.isLt r) (BitVec.ofNat 32 k.val) (t.val % 8 * 1024)) :
    step (xblk m c t) acc (ix2 r k)
      = countTo (xarr m c) (rowAt t.val t.isLt r) (BitVec.ofNat 32 k.val) ((t.val % 8 + 1) * 1024) := by
  show acc (ix2 r k) + ∑ l : Fin 1024, hit (xblk m c t (ix2 r l)) (BitVec.ofNat 32 k.val) = _
  rw [hacc, show (t.val % 8 + 1) * 1024 = t.val % 8 * 1024 + 1024 by ring,
    countTo_add _ _ _ _ (by omega)]
  refine congrArg (fun z => countTo (xarr m c) (rowAt t.val t.isLt r) (BitVec.ofNat 32 k.val) (t.val % 8 * 1024) + z) ?_
  refine Finset.sum_congr rfl (fun l _ => ?_)
  rw [xblk_apply]

/-! ### The table of counts after every grid point -/

/-- After grid point `n` the table holds, at `(r, k)`, the number of the first `(n % 8 + 1) · 1024` columns of the array's
    row `(n / 8) · 512 + r` whose value falls in bin `k`. -/
def Inv (c : Dev nD) (n : ℕ) (h : n < cfg0.N) : Prop :=
  ∀ (r : Fin 512) (k : Fin 64), (outsAt0 m c n h).2 (ix2 r k)
    = countTo (xarr m c) (rowAt n h r) (BitVec.ofNat 32 k.val) ((n % 8 + 1) * 1024)

/-- The first tile of a row of tiles starts from the zero table. -/
theorem inv_first (c : Dev nD) (t : Fin cfg0.N) (h0 : t.val % 8 = 0) : Inv m c t.val t.isLt := by
  intro r k
  have h1 : ¬t.val % 8 = 7 := by omega
  rw [outsAt0_A m c t h0 h1]
  dsimp only
  refine (congrFun (sout_A c (grid0.coords t) (ms0_0 t) (hs0_0 t) (ms0_1 t) (hs0_1 t) scM0_0 (Memref.isWhole_whole _)
    ((hcond0_0 t).mpr h0) (fun h => h1 ((hcond0_1 t).mp h)) (xblk m c t)) (ix2 r k)).trans ?_
  refine stepAt_count m c t (fun _ => 0) r k ?_
  rw [h0, Nat.zero_mul, countTo_zero]

/-- A later tile of a row of tiles adds its lanes to what the point before left. -/
theorem inv_next (c : Dev nD) (t : Fin cfg0.N) (h0 : ¬t.val % 8 = 0)
    (ih : Inv m c (t.val - 1) (Nat.lt_of_le_of_lt (Nat.sub_le _ _) t.isLt)) : Inv m c t.val t.isLt := by
  intro r k
  have hrow : rowAt (t.val - 1) (Nat.lt_of_le_of_lt (Nat.sub_le _ _) t.isLt) r = rowAt t.val t.isLt r :=
    Fin.ext (by show (t.val - 1) / 8 * 512 + r.val = t.val / 8 * 512 + r.val; omega)
  have hcnt : ((t.val - 1) % 8 + 1) * 1024 = t.val % 8 * 1024 := by omega
  have hprev := ih r k
  rw [hrow, hcnt] at hprev
  by_cases h1 : t.val % 8 = 7
  · rw [outsAt0_C m c t h0 h1]
    dsimp only
    refine (congrFun (sout_C c (grid0.coords t) (ms0_0 t) (hs0_0 t) (ms0_1 t) (hs0_1 t) scM0_0 (Memref.isWhole_whole _)
      (fun h => h0 ((hcond0_0 t).mp h)) ((hcond0_1 t).mpr h1) (xblk m c t)
      (outsAt0 m c (t.val - 1) (Nat.lt_of_le_of_lt (Nat.sub_le _ _) t.isLt)).2) (ix2 r k)).trans ?_
    exact stepAt_count m c t _ r k hprev
  · rw [outsAt0_B m c t h0 h1]
    dsimp only
    refine (congrFun (sout_B c (grid0.coords t) (ms0_0 t) (hs0_0 t) (ms0_1 t) (hs0_1 t) scM0_0 (Memref.isWhole_whole _)
      (fun h => h0 ((hcond0_0 t).mp h)) (fun h => h1 ((hcond0_1 t).mp h)) (xblk m c t)
      (outsAt0 m c (t.val - 1) (Nat.lt_of_le_of_lt (Nat.sub_le _ _) t.isLt)).2) (ix2 r k)).trans ?_
    exact stepAt_count m c t _ r k hprev

/-- The invariant at every grid point, by induction on the point. -/
theorem inv_all (c : Dev nD) : ∀ (n : ℕ) (h : n < cfg0.N), Inv m c n h
  | 0, h => inv_first m c ⟨0, h⟩ rfl
  | n + 1, h => by
    by_cases h0 : (n + 1) % 8 = 0
    · exact inv_first m c ⟨n + 1, h⟩ h0
    · exact inv_next m c ⟨n + 1, h⟩ h0 (inv_all c n (Nat.lt_of_succ_lt h))

/-- What the point before a later tile left, restated at the tile's own row block: the count over the tiles before. -/
theorem prev_count (c : Dev nD) (t : Fin cfg0.N) (h0 : ¬t.val % 8 = 0) (r : Fin 512) (k : Fin 64) :
    (outsAt0 m c (t.val - 1) (Nat.lt_of_le_of_lt (Nat.sub_le _ _) t.isLt)).2 (ix2 r k)
      = countTo (xarr m c) (rowAt t.val t.isLt r) (BitVec.ofNat 32 k.val) (t.val % 8 * 1024) := by
  have hrow : rowAt (t.val - 1) (Nat.lt_of_le_of_lt (Nat.sub_le _ _) t.isLt) r = rowAt t.val t.isLt r :=
    Fin.ext (by show (t.val - 1) / 8 * 512 + r.val = t.val / 8 * 512 + r.val; omega)
  have hcnt : ((t.val - 1) % 8 + 1) * 1024 = t.val % 8 * 1024 := by omega
  have hprev := inv_all m c (t.val - 1) (Nat.lt_of_le_of_lt (Nat.sub_le _ _) t.isLt) r k
  rw [hrow, hcnt] at hprev
  exact hprev

/-! ### What the last tile of a row of tiles writes back -/

/-- At the last tile of a row of tiles the output block is the normalised histogram's rows `(t / 8) · 512 …`. -/
theorem flushed_eq (c : Dev nD) (t : Fin cfg0.N) (hf : (cfg0.win 1).flush t = true) :
    (dats m 0 c).flushed 1 t = ((cfg0.win 1).blk t).view.read (Elt Ideal) (G (xarr m c)) := by
  have h1 : t.val % 8 = 7 := (flush0_1 t).mp hf
  have h0 : ¬t.val % 8 = 0 := by omega
  obtain ⟨-, -, e2, e3⟩ := idx_facts t
  rw [Value.flushed1_C m c t h0 h1,
    out_C c (grid0.coords t) (ms0_0 t) (hs0_0 t) (ms0_1 t) (hs0_1 t) scM0_0 (Memref.isWhole_whole _)
      (fun h => h0 ((hcond0_0 t).mp h)) ((hcond0_1 t).mpr h1) (xblk m c t)
      (outsAt0 m c (t.val - 1) (Nat.lt_of_le_of_lt (Nat.sub_le _ _) t.isLt)).2]
  funext j
  have hj0 : (j 0).val < 512 := (j 0).isLt
  have hj1 : (j 1).val < 64 := (j 1).isLt
  have hx : ((cfg0.win 1).xinj (grid0.coords t) j : S512x64.Idx)
      = ix2 (⟨(j 0).val, hj0⟩ : Fin 512) (⟨(j 1).val, hj1⟩ : Fin 64) := by
    funext a
    match a with
    | ⟨0, _⟩ => rfl
    | ⟨1, _⟩ => rfl
  have hemb : (((cfg0.win 1).blk t).view.emb j : S4096x64.Idx)
      = ix2 (rowAt t.val t.isLt ⟨(j 0).val, hj0⟩) (⟨(j 1).val, hj1⟩ : Fin 64) := by
    funext a
    apply Fin.ext
    match a with
    | ⟨0, _⟩ => show win0_1.index t (0 : Fin 2) * 512 + 1 * (j 0).val = t.val / 8 * 512 + (j 0).val; rw [e2]; omega
    | ⟨1, _⟩ => show win0_1.index t (1 : Fin 2) * 64 + 1 * (j 1).val = (j 1).val; rw [e3]; omega
  show Ideal.div (step (xblk m c t) (outsAt0 m c (t.val - 1) (Nat.lt_of_le_of_lt (Nat.sub_le _ _) t.isLt)).2
      ((cfg0.win 1).xinj (grid0.coords t) j)) (Ideal.ofBits .f32 0x46000000#32)
    = G (xarr m c) (((cfg0.win 1).blk t).view.emb j)
  rw [hx, hemb, stepAt_count m c t _ _ _ (prev_count m c t h0 _ _), h1]
  rfl

/-! ### The result array -/

/-- The last tile of the row of tiles that holds row `R` of the array. -/
abbrev lastTile (R : ℕ) (hR : R < 4096) : Fin cfg0.N :=
  ⟨8 * (R / 512) + 7, by rw [show cfg0.N = 64 from N_0]; omega⟩

/-- After the run the result array is the normalised histogram of the argument array: every row lies in the block
    that the last tile of its row of tiles writes back. -/
theorem final (c : Dev nD) : (dats m 0 c).arrAt 1 cfg0.N = G (xarr m c) :=
  (dats m 0 c).arrAt_eq_of_cover 1 (G (xarr m c)) (fun t hf => flushed_eq m c t hf) fun i => by
    have hi0 : (i 0).val < 4096 := (i 0).isLt
    have hi1 : (i 1).val < 64 := (i 1).isLt
    refine ⟨lastTile (i 0).val hi0, (flush0_1 _).mpr (by show (8 * ((i 0).val / 512) + 7) % 8 = 7; omega), ?_⟩
    obtain ⟨-, -, e2, e3⟩ := idx_facts (lastTile (i 0).val hi0)
    have e2' : win0_1.index (lastTile (i 0).val hi0) (0 : Fin 2) = (i 0).val / 512 := by
      rw [e2]; show (8 * ((i 0).val / 512) + 7) / 8 = (i 0).val / 512; omega
    show i ∈ ((View.whole main_v0).slice (win0_1.rect (lastTile (i 0).val hi0))).set
    rw [View.set_slice_whole, Rect.mem_set_unit]
    intro a
    match a with
    | ⟨0, _⟩ =>
      show win0_1.index (lastTile (i 0).val hi0) (0 : Fin 2) * 512 ≤ (i 0).val
        ∧ (i 0).val < win0_1.index (lastTile (i 0).val hi0) (0 : Fin 2) * 512 + 512
      rw [e2']; omega
    | ⟨1, _⟩ =>
      show win0_1.index (lastTile (i 0).val hi0) (1 : Fin 2) * 64 ≤ (i 1).val
        ∧ (i 1).val < win0_1.index (lastTile (i 0).val hi0) (1 : Fin 2) * 64 + 64
      rw [e3]; omega

/-- The kernel's run: the result array ends at the normalised histogram of the argument array, which is unchanged. -/
theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c : Thread Cert.KernelIdeal.nD Cert.KernelIdeal.τ).loc Cert.KernelIdeal.main_v0) = Cert.Hist.G (m ((c : Thread Cert.KernelIdeal.nD Cert.KernelIdeal.τ).loc Cert.KernelIdeal.main_arg0))
      ∧ r.2.mem ((c : Thread Cert.KernelIdeal.nD Cert.KernelIdeal.τ).loc Cert.KernelIdeal.main_arg0) = m ((c : Thread Cert.KernelIdeal.nD Cert.KernelIdeal.τ).loc Cert.KernelIdeal.main_arg0) :=
  (θ_run defs _ _).mono (fun r h c => ⟨(h c).1.trans (final m c), (h c).2⟩) (Value.run_blocks m ρ)

end Cert.Hist.Kern

end
-- ==== Proof.lean ====
/-
  A per-row histogram with 64 fixed-width bins, normalised by the row length, computed two ways.

  Both programs send each value `v` of the 4096 × 8192 input to the bin `⌊(v + 3) · s⌋` — `s` the single-precision
  value nearest 32/3, the same word in both — read as a signed 32-bit integer and clamped to `[0, 63]`. The kernel
  walks each block of 512 rows in eight tiles of 1024 columns; at every tile, for each bin `k`, it adds to column `k`
  of a 512 × 64 table the lane sum of the indicator "this value is in bin `k`", starting from zero at the row block's
  first tile, and at the last tile writes the table divided by 8192. The reference scatters a one for every input
  element into a flat array of 4096 · 64 counters at position `row · 64 + bin`, and divides by 8192.

  At the ideal instance both results are, at `(b, k)`, the number of columns of row `b` whose value is in bin `k`,
  over 8192: the kernel's count is that sum of 0/1 indicators taken tile by tile (`Cert.Hist.Kern.run`), the
  reference's is the same sum re-indexed through the flat positions, which determine row and bin because a bin is
  at most 63 (`Cert.Hist.Ref.val_eq_G`). No law beyond regrouping a finite sum is used, so the inputs' finiteness is
  never opened. The idealisation rewrote nothing, so `preserves` has no conjunct to prove.
-/
import proofs.«117676_j3547642986677_1_alg».proof.Defs
import proofs.«117676_j3547642986677_1_alg».proof.Proof.Gen.Kernel
import proofs.«117676_j3547642986677_1_alg».proof.Proof.Gen.Kernel.Skeleton
import proofs.«117676_j3547642986677_1_alg».proof.Proof.Gen.Kernel.Launch
import proofs.«117676_j3547642986677_1_alg».proof.Proof.Gen.Kernel.Points
import proofs.«117676_j3547642986677_1_alg».proof.Proof.Gen.Kernel.Frame
import proofs.«117676_j3547642986677_1_alg».proof.Proof.Gen.KernelIdeal
import proofs.«117676_j3547642986677_1_alg».proof.Proof.Gen.KernelIdeal.Skeleton
import proofs.«117676_j3547642986677_1_alg».proof.Proof.Gen.KernelIdeal.Launch
import proofs.«117676_j3547642986677_1_alg».proof.Proof.Gen.KernelIdeal.Points
import proofs.«117676_j3547642986677_1_alg».proof.Proof.Gen.KernelIdeal.Frame
import proofs.«117676_j3547642986677_1_alg».proof.Proof.Gen.ReferenceIdeal
import proofs.«117676_j3547642986677_1_alg».proof.Proof.Gen.Pre_finite_inputs
import proofs.«117676_j3547642986677_1_alg».proof.Proof.Gen.KernelIdeal.Value
import proofs.«117676_j3547642986677_1_alg».proof.Proof.Gen.ReferenceIdeal.Run
import proofs.«117676_j3547642986677_1_alg».proof.Proof.Gen.ReferenceIdeal.Read
import proofs.«117676_j3547642986677_1_alg».proof.Proof.RefSide
import proofs.«117676_j3547642986677_1_alg».proof.Proof.KFold
import Idealize.ShloMosaic.Adequacy
import Idealize.ShloMosaic.Init

noncomputable section

namespace Cert.Proof

open Idealize.ShloMosaic Idealize.ShloMosaic.TcCoe Idealize.SL.Sem

/-- The word-level kernel runs and leaves its argument as it found it. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both programs end with the normalised histogram `Cert.Hist.G` of the argument array. -/
theorem algebraic : Cert.algebraic_KernelIdeal_ReferenceIdeal := by
  intro m ρ m' ρ' _ hagree
  refine ⟨fun c => Cert.Hist.G (m ((c : Thread Cert.KernelIdeal.nD Cert.KernelIdeal.τ).loc Cert.KernelIdeal.main_arg0)),
    Cert.Hist.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.Hist.Ref.val_eq_G, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
